-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1 : Shape := ⟨1, ![1]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1 : S_.BroadcastsInDim S1 (![] : Fin 0 → Fin S1.rank)
  reducesTo_S1_S_d0 : S1.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x4096x1024 .f32) (main_arg1 : FVec F S1024x1024 .f32) (main_arg2 : FVec F S1 .f32) (main_arg3 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x4096x1024 : Shape := ⟨3, ![8, 4096, 1024]⟩
abbrev S1024x1024 : Shape := ⟨2, ![1024, 1024]⟩
abbrev S1 : Shape := ⟨1, ![1]⟩
abbrev S1024 : Shape := ⟨1, ![1024]⟩
abbrev S_ : Shape := ⟨0, ![]⟩
abbrev S1x1 : Shape := ⟨2, ![1, 1]⟩
abbrev S32768x1024 : Shape := ⟨2, ![32768, 1024]⟩
abbrev S1x1024 : Shape := ⟨2, ![1, 1024]⟩

abbrev nBuf : Space → Nat
  | .hbm => 34
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x1024, .f32⟩
  | .hbm, ⟨12, _⟩ => ⟨S1024x1024, .i1⟩
  | .hbm, ⟨13, _⟩ => ⟨S_, .f32⟩
  | .hbm, ⟨14, _⟩ => ⟨S1024x1024, .f32⟩
  | .hbm, ⟨15, _⟩ => ⟨S1024x1024, .i1⟩
  | .hbm, ⟨16, _⟩ => ⟨S_, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1x1, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .bf16⟩
  | .hbm, ⟨30, _⟩ => ⟨S32768x1024, .f32⟩
  | .hbm, ⟨31, _⟩ => ⟨S1x1024, .f32⟩
  | .hbm, ⟨32, _⟩ => ⟨S32768x1024, .f32⟩
  | .hbm, ⟨33, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_cst_4 : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  bcast_S1_S1x1_1 : S1.BroadcastsInDim S1x1 (![1] : Fin 1 → Fin S1x1.rank)
  bcast_S1x1_S1024x1024_0_1 : S1x1.BroadcastsInDim S1024x1024 (![0, 1] : Fin 2 → Fin S1024x1024.rank)
  transposes_S1024x1024_S1024x1024_1_0 : S1024x1024.Transposes [1, 0] S1024x1024
  bitsLt_bf16_f32 : FTy.bits .bf16 < FTy.bits .f32
  shapeCasts_S8x4096x1024_S32768x1024 : S8x4096x1024.ShapeCasts S32768x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x1024_S8x4096x1024 : S32768x1024.ShapeCasts S8x4096x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v17) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1 : Shape := ⟨1, ![1]⟩
abbrev S1024 : Shape := ⟨1, ![1024]⟩
abbrev S_ : Shape := ⟨0, ![]⟩
abbrev S1x1 : Shape := ⟨2, ![1, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x1024, .f32⟩
  | .hbm, ⟨12, _⟩ => ⟨S1024x1024, .i1⟩
  | .hbm, ⟨13, _⟩ => ⟨S_, .f32⟩
  | .hbm, ⟨14, _⟩ => ⟨S1024x1024, .f32⟩
  | .hbm, ⟨15, _⟩ => ⟨S1024x1024, .i1⟩
  | .hbm, ⟨16, _⟩ => ⟨S_, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1x1, .f32⟩
  | .hbm, ⟨26, _⟩ => ⟨S1024x1024, .f32⟩
  | .hbm, ⟨27, _⟩ => ⟨S1024x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_cst_4 : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  bcast_S1_S1x1_1 : S1.BroadcastsInDim S1x1 (![1] : Fin 1 → Fin S1x1.rank)
  bcast_S1x1_S1024x1024_0_1 : S1x1.BroadcastsInDim S1024x1024 (![0, 1] : Fin 2 → Fin S1024x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S1024x1024_S8x4096x1024_2_1_01_0_n_n_wf : DotDims.WF S8x4096x1024 S1024x1024 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.BlockProduct.lean ====
/-
  One grid point of the kernel, read at one element.

  The body loads a block of 1024 rows of the flattened activations (`x`, 1024 × 1024), the whole transposed
  weight matrix (`w`, 1024 × 1024, held in bf16) and the bias as a single row (`b`, 1 × 1024), and stores
  `x · w + b` with the bias row repeated down the rows. Over the extended reals the change of float format is the
  identity and the matrix unit's product into a zero accumulator is the plain sum of products, so the stored
  element at row `p`, column `q` is  ∑ₖ x[p, k] · w[k, q]  +  b[0, q].
-/
import proofs.«125920_j44719199486025_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-! ## The matrix product's operand indices: output (row, column) and contraction index `k` give (row, k) and (k, column) -/

theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_contr (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_contr (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix unit's product into the zero accumulator, at (p, q): the sum over `k` of `l[p, k] · r[k, q]`. -/
theorem product_apply (l : FVec Ideal S1024x1024 .bf16) (r : FVec Ideal S1024x1024 .bf16) (p q : Fin 1024) :
    matmul (F := Ideal) dot_S1024x1024_S1024x1024_S1024x1024_1_0_0_1_n_n none l r (constant S1024x1024 .f32 0x00000000#32) (ix2 p q)
      = ∑ k : Fin 1024, l (ix2 p k) * r (ix2 k q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_row _ _
    | ⟨1, _⟩ => exact (lhs_contr _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_contr _ _).trans hk
    | ⟨1, _⟩ => exact rhs_col _ _)
  rw [el, er]

/-- The bias row repeated down the rows, at (p, q): the row's element `q`. -/
theorem bias_rows_apply (b : FVec Ideal S1x1024 .f32) (p q : Fin 1024) :
    broadcastTo S1024x1024 b broadcasts_S1x1024_S1024x1024 (ix2 p q) = b (ix2 0 q) :=
  broadcastTo_apply b broadcasts_S1x1024_S1024x1024 (ix2 p q) (ix2 0 q) (fun a => by
    match a with
    | ⟨0, _⟩ => show 0 = if (1 : Nat) = 1 then 0 else _; rw [if_pos rfl]
    | ⟨1, _⟩ => show q.val = if (1024 : Nat) = 1 then 0 else q.val; rw [if_neg (by decide)])

/-- What the body stores, at row `p` and column `q`. -/
theorem stored_apply (x : Vec Ideal S1024x1024 .f32) (w : Vec Ideal S1024x1024 .bf16) (b : Vec Ideal S1x1024 .f32) (p q : Fin 1024) :
    k0_pay1 (F := Ideal) x w b (ix2 p q) = (∑ k : Fin 1024, x (ix2 p k) * w (ix2 k q)) + b (ix2 0 q) := by
  unfold k0_pay1
  rw [shapeCast_self, shapeCast_self, shapeCast_self, addf_apply, product_apply, bias_rows_apply]
  rfl

end Cert.KernelIdeal.BlockProduct

end
-- ==== Proof.RegionValue.lean ====
/-
  The output array of the kernel region as ONE function of the three arrays the region reads.

  The region runs the body at 32 grid points. Point `t` reads rows 1024·t … 1024·t + 1023 of the flattened
  activations `X` (32768 × 1024), the whole transposed weight matrix `W` (1024 × 1024) and the whole bias row
  `B` (1 × 1024), and writes rows 1024·t … 1024·t + 1023 of the output. So what point `t` writes back is the block
  of rows of the single array

      (X · W + B)[r, o] = ∑ₖ X[r, k] · W[k, o] + B[0, o],

  and since the 32 row blocks tile all 32768 rows, the output array ends holding exactly that.
-/
import proofs.«125920_j44719199486025_1_alg».proof.Proof.Gen.KernelIdeal.Frame
import proofs.«125920_j44719199486025_1_alg».proof.Proof.BlockProduct

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- Rows times the matrix, plus the bias row: the whole output array from the three arrays the region reads. -/
def affine (X : Vec Ideal S32768x1024 .f32) (W : Vec Ideal S1024x1024 .bf16) (B : Vec Ideal S1x1024 .f32) : Vec Ideal S32768x1024 .f32 :=
  fun i => (∑ k : Fin 1024, X (ix2 (i 0) k) * W (ix2 k (i 1))) + B (ix2 0 (i 1))

theorem zero_offsets : (![0, 0] : Fin 2 → Nat) = fun _ => 0 := funext fun a => by fin_cases a <;> rfl

/-- The printed index maps over the 32 points: the activations' and the output's row blocks are block `t`; the weight
    and the bias are always their one block; nothing moves along the columns. -/
theorem block_indices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 31 :=
  (by decide +kernel : ∀ t : Fin grid0.N, _)

/-- Every one of the 32 row blocks is some point's. -/
theorem block_onto : ∀ q : Fin 32, ∃ t : Fin cfg0.N, win0_3.index t = ![q.val, 0] :=
  (by decide +kernel : ∀ q : Fin 32, ∃ t : Fin grid0.N, win0_3.index t = ![q.val, 0])

/-- WHAT POINT `t` WRITES BACK is its block of rows of `affine` of the three arrays as the region finds them. -/
theorem written_back (c : Dev nD) (t : Fin cfg0.N) :
    (dats (F := Ideal) m 0 c).flushed 3 t
      = ((cfg0.win 3).blk t).view.read (Elt Ideal) (affine (V m c main_v17) (V m c main_v16) (V m c main_v18)) := by
  show (cfg0.win 3).cut (grid0.coords t) ((dats m 0 c).after 3 t) = _
  rw [after0_3]
  unfold out0_3
  rw [View.canon_unit_zero zero_offsets]
  simp only [View.ld_unit_zero (S := S1024x1024) zero_offsets, View.ld_unit_zero (S := S1x1024) zero_offsets]
  obtain ⟨e0, e1, e2, e3, e4, e5, e6, e7⟩ := block_indices t
  funext j
  show k0_pay1 (F := Ideal) (iblk m c 0 t) (iblk m c 1 t) (iblk m c 2 t) j
    = affine (V m c main_v17) (V m c main_v16) (V m c main_v18) (((cfg0.win 3).blk t).view.emb j)
  obtain ⟨p, q, rfl⟩ : ∃ (p q : Fin 1024), j = ix2 p q := ⟨j 0, j 1, eq_ix2 j⟩
  refine (BlockProduct.stored_apply (iblk m c 0 t) (iblk m c 1 t) (iblk m c 2 t) p q).trans ?_
  unfold affine
  -- the activations' block, row p: row (block t's first row + p) of the array
  have hx : ∀ k : Fin 1024, iblk m c 0 t (ix2 p k)
      = V m c main_v17 (ix2 ((((cfg0.win 3).blk t).view.emb (ix2 p q)) 0) k) := fun k => by
    show V m c main_v17 (((cfg0.win 0).blk t).view.emb (ix2 p k)) = _
    refine congrArg _ (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 1024 + 1 * k.val = k.val; omega
  -- the weight matrix's one block is the matrix
  have hw : ∀ k : Fin 1024, iblk m c 1 t (ix2 k q)
      = V m c main_v16 (ix2 k ((((cfg0.win 3).blk t).view.emb (ix2 p q)) 1)) := fun k => by
    show V m c main_v16 (((cfg0.win 1).blk t).view.emb (ix2 k q)) = _
    refine congrArg _ (funext fun a => Fin.ext ?_)
    match a with
    | ⟨0, _⟩ => show win0_1.index t (0 : Fin 2) * 1024 + 1 * k.val = k.val; omega
    | ⟨1, _⟩ => show win0_1.index t (1 : Fin 2) * 1024 + 1 * q.val = win0_3.index t (1 : Fin 2) * 1024 + 1 * q.val; omega
  -- the bias row's one block is the row
  have hb : iblk m c 2 t (ix2 0 q) = V m c main_v18 (ix2 0 ((((cfg0.win 3).blk t).view.emb (ix2 p q)) 1)) := by
    show V m c main_v18 (((cfg0.win 2).blk t).view.emb (ix2 0 q)) = _
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega
  rw [hb]
  exact congrArg (· + _) (Finset.sum_congr rfl fun k _ => by rw [hx k, hw k])

/-- An index of the output array is in point `t`'s block iff each coordinate is in the block's range on its axis. -/
theorem mem_block (t : Fin cfg0.N) (i : S32768x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v19).slice (win0_3.rect t)).set ↔ _
  rw [View.set_slice_whole, Rect.mem_set_unit]
  exact Iff.rfl

/-- The row blocks tile the array: row `r` is in the block of point `r / 1024`. -/
theorem covered (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  obtain ⟨t, ht⟩ := block_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE OUTPUT ARRAY after the region: `affine` of the three arrays as the region finds them. -/
theorem output_array (c : Dev nD) :
    (dats (F := Ideal) m 0 c).arrAt 3 cfg0.N = affine (V m c main_v17) (V m c main_v16) (V m c main_v18) :=
  (dats m 0 c).arrAt_eq_of_cover 3 (affine (V m c main_v17) (V m c main_v16) (V m c main_v18))
    (fun t _ => written_back m c t) covered

end Cert.KernelIdeal.RegionValue

end
-- ==== Proof.Linear.lean ====
/-
  The function both programs compute: a linear layer applied to every token.

  For activations `x` (8 × 4096 × 1024), a weight matrix `w` (1024 outputs × 1024 inputs) and a bias `b` (1024),

      linear x w b [n, s, o] = ∑ₖ x[n, s, k] · w[o, k] + b[o]

  over the extended reals. (The weight matrix is whatever both programs derive from the raw weights and the scale by
  the same elementwise steps; here it is a parameter.)
-/
import Idealize.ShloMosaic.PureOps.Ideal
import Idealize.ShloMosaic.Lib.ValueIdx

noncomputable section

open scoped BigOperators

namespace Cert.Linear

open Idealize.ShloMosaic Idealize.ShloMosaic.ValueIdx

/-- Every token's row times the transposed weight matrix, plus the bias. -/
def linear (x : FVec Ideal ⟨3, ![8, 4096, 1024]⟩ .f32) (w : FVec Ideal ⟨2, ![1024, 1024]⟩ .f32) (b : FVec Ideal ⟨1, ![1024]⟩ .f32) :
    FVec Ideal ⟨3, ![8, 4096, 1024]⟩ .f32 :=
  fun i => (∑ k : Fin 1024, x (ix3 (i 0) (i 1) k) * w (ix2 (i 2) k)) + b (ix1 (i 2))

end Cert.Linear

end
-- ==== Proof.KernelResult.lean ====
/-
  The idealized kernel's whole run: what its result array holds, as a function of the four arguments.

  Before the region the host derives the effective weight matrix `w` (1024 outputs × 1024 inputs) from the raw weights
  and the scale, transposes it (the change to bf16 is the identity over the extended reals), flattens the activations
  from 8 × 4096 × 1024 to 32768 × 1024 (token (n, s) becomes row 4096·n + s) and views the bias as one row. The region
  then leaves  X · Wᵀ + B  in a 32768 × 1024 array, and the host reshapes it back to 8 × 4096 × 1024. Read at (n, s, o):

      ∑ₖ x[n, s, k] · w[o, k] + b[o].
-/
import proofs.«125920_j44719199486025_1_alg».proof.Proof.Gen.KernelIdeal.Frame
import proofs.«125920_j44719199486025_1_alg».proof.Proof.Gen.ReferenceIdeal.Read
import proofs.«125920_j44719199486025_1_alg».proof.Proof.RegionValue
import proofs.«125920_j44719199486025_1_alg».proof.Proof.Linear
import Idealize.ShloMosaic.Lib.StableHlo.Run

noncomputable section

open scoped BigOperators

namespace Cert.KernelIdeal.KernelResult

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The effective weight matrix, from the raw weights and the scale: the reference's own term for it (the two programs
    derive it by the same operations with the same constants, so the kernel's is this term too). -/
abbrev weights (c : Dev nD) : FVec Ideal S1024x1024 .f32 :=
  Cert.ReferenceIdeal.Read.val_main_v14 (F := Ideal) (m ((c : Thread nD τ).loc main_arg1)) (m ((c : Thread nD τ).loc main_arg2))

/-- The activations argument, at its literal type. -/
abbrev acts (c : Dev nD) : FVec Ideal S8x4096x1024 .f32 := m ((c : Thread nD τ).loc main_arg0)
/-- The bias argument, at its literal type. -/
abbrev bias (c : Dev nD) : FVec Ideal S1024 .f32 := m ((c : Thread nD τ).loc main_arg3)

/-- The three arrays the region reads, as it finds them, at their literal types. -/
abbrev xarr (c : Dev nD) : Vec Ideal S32768x1024 .f32 := V m c main_v17
abbrev warr (c : Dev nD) : Vec Ideal S1024x1024 .bf16 := V m c main_v16
abbrev barr (c : Dev nD) : Vec Ideal S1x1024 .f32 := V m c main_v18

/-! ## The three arrays as the region finds them -/

/-- The activations, flattened. -/
theorem activations_array (c : Dev nD) : (V m c main_v17 : Vec Ideal S32768x1024 .f32)
    = shapeCast S32768x1024 (m ((c : Thread nD τ).loc main_arg0)) shapeCasts_S8x4096x1024_S32768x1024 := by
  dsimp only [Gen.V, Gen.V0]
  simp only [hostOps0, hostOps0_1, hostOps0_2, hostOps0_3, hostOps0_4, List.flatten_cons, List.flatten_nil, List.append_nil, List.cons_append, List.nil_append]
  after_results
  rfl

/-- The bias, as one row. -/
theorem bias_array (c : Dev nD) : (V m c main_v18 : Vec Ideal S1x1024 .f32)
    = shapeCast S1x1024 (m ((c : Thread nD τ).loc main_arg3)) shapeCasts_S1024_S1x1024 := by
  dsimp only [Gen.V, Gen.V0]
  simp only [hostOps0, hostOps0_1, hostOps0_2, hostOps0_3, hostOps0_4, List.flatten_cons, List.flatten_nil, List.append_nil, List.cons_append, List.nil_append]
  after_results
  rfl

set_option maxHeartbeats 2000000 in
/-- The effective weight matrix, transposed (and held in bf16, which changes nothing here). -/
theorem weight_array (c : Dev nD) : (V m c main_v16 : Vec Ideal S1024x1024 .bf16)
    = truncf .bf16 (transpose S1024x1024 [1, 0] (weights m c) transposes_S1024x1024_S1024x1024_1_0) bitsLt_bf16_f32 := by
  dsimp only [Gen.V, Gen.V0]
  simp only [hostOps0, hostOps0_1, hostOps0_2, hostOps0_3, hostOps0_4, List.flatten_cons, List.flatten_nil, List.append_nil, List.cons_append, List.nil_append]
  after_results
  rfl

/-- Row 4096·n + s of the flattened activations is token (n, s). -/
theorem activations_apply (c : Dev nD) (n : Fin 8) (s : Fin 4096) (k : Fin 1024) (r : Fin 32768) (hr : r.val = n.val * 4096 + s.val) :
    xarr m c (ix2 r k) = acts m c (ix3 n s k) := by
  refine (congrFun (activations_array m c) _).trans ?_
  refine shapeCast_apply _ _ (ix2 r k) (ix3 n s k) ?_
  rw [Shape.rowMajor_val_three, Shape.rowMajor_val_two]
  show (n.val * 4096 + s.val) * 1024 + k.val = r.val * 1024 + k.val
  rw [hr]

/-- The bias row's element `o` is the bias's. -/
theorem bias_apply (c : Dev nD) (o : Fin 1024) :
    barr m c (ix2 0 o) = bias m c (ix1 o) := by
  refine (congrFun (bias_array m c) _).trans ?_
  refine shapeCast_apply _ _ (ix2 0 o) (ix1 o) ?_
  rw [Shape.rowMajor_val_one, Shape.rowMajor_val_two]
  show o.val = 0 * 1024 + o.val
  omega

/-- The transposed matrix at (k, o) is the weight matrix at (o, k). -/
theorem weight_apply (c : Dev nD) (k o : Fin 1024) : warr m c (ix2 k o) = weights m c (ix2 o k) := by
  refine (congrFun (weight_array m c) _).trans ?_
  rw [truncf_apply]
  exact transpose_apply [1, 0] (weights m c) transposes_S1024x1024_S1024x1024_1_0 (ix2 k o) (ix2 o k) (fun a => by
    match a with
    | ⟨0, _⟩ => rfl
    | ⟨1, _⟩ => rfl)

/-! ## The result array: the region's output, reshaped -/

theorem result_array (c : Dev nD) :
    (Pipeline.afterTail₀ cfgs (dats (F := Ideal) m) 0 (V0 m) [hostOps1] c main_v20 : Vec Ideal S8x4096x1024 .f32)
      = shapeCast S8x4096x1024 (RegionValue.affine (V m c main_v17) (V m c main_v16) (V m c main_v18)) shapeCasts_S32768x1024_S8x4096x1024 := by
  unfold Pipeline.afterTail₀
  show StableHlo.after hostOps1 _ (Proc.devRef .tc main_v20) = _
  after_results
  have e : Pipeline.withArrays (cfgs 0).spec c (V0 m c) (fun w => (dats (F := Ideal) m 0 c).arrAt w (cfgs 0).N) (Proc.devRef .tc main_v19)
      = RegionValue.affine (V m c main_v17) (V m c main_v16) (V m c main_v18) :=
    (Pipeline.withArrays_arr spec0 launch0.win.arr_inj c _ _ 3).trans (RegionValue.output_array m c)
  exact congrArg (fun A : Vec Ideal S32768x1024 .f32 => shapeCast S8x4096x1024 A shapeCasts_S32768x1024_S8x4096x1024) e

/-- The result at token (n, s), output `o`. -/
theorem result_apply (c : Dev nD) (n : Fin 8) (s : Fin 4096) (o : Fin 1024) :
    Pipeline.afterTail₀ cfgs (dats (F := Ideal) m) 0 (V0 m) [hostOps1] c main_v20 (ix3 n s o)
      = (∑ k : Fin 1024, acts m c (ix3 n s k) * weights m c (ix2 o k)) + bias m c (ix1 o) := by
  have hr : n.val * 4096 + s.val < 32768 := by have := n.isLt; have := s.isLt; omega
  refine (congrFun (result_array m c) _).trans ?_
  refine (shapeCast_apply _ _ (ix3 n s o) (ix2 (⟨n.val * 4096 + s.val, hr⟩ : Fin 32768) o) ?_).trans ?_
  · rw [Shape.rowMajor_val_three, Shape.rowMajor_val_two]
    rfl
  show (∑ k : Fin 1024, xarr m c (ix2 (⟨n.val * 4096 + s.val, hr⟩ : Fin 32768) k) * warr m c (ix2 k o)) + barr m c (ix2 0 o) = _
  rw [bias_apply]
  exact congrArg (· + _) (Finset.sum_congr rfl fun k _ => by
    rw [activations_apply m c n s k ⟨n.val * 4096 + s.val, hr⟩ rfl, weight_apply m c k o])

/-- The result array is the linear layer of the arguments. -/
theorem result_eq (c : Dev nD) :
    Pipeline.afterTail₀ cfgs (dats (F := Ideal) m) 0 (V0 m) [hostOps1] c main_v20
      = Cert.Linear.linear (acts m c) (weights m c) (bias m c) := by
  funext i
  obtain ⟨n, s, o, rfl⟩ : ∃ (n : Fin 8) (s : Fin 4096) (o : Fin 1024), i = ix3 n s o := ⟨i 0, i 1, i 2, eq_ix3 i⟩
  exact result_apply m c n s o

/-! ## The run -/

/-- Every weakly fair execution of the idealized kernel ends with the result array at the linear layer of the arguments,
    and the arguments as they were. -/
theorem run : θ_run defs (onTc (τ := τ) (main (F := Ideal))) ⟨m, fun _ => 0, ρ⟩ fun r => ∀ c : Dev nD,
      r.2.mem ((c.tc : Thread nD τ).loc main_v20) = Cert.Linear.linear (acts m c) (weights m c) (bias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v20 (Pipeline.mem_restRefs_of main_v20 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelResult

end
-- ==== Proof.ReferenceResult.lean ====
/-
  The idealized reference's result as the linear layer of its arguments.

  The reference contracts the activations' last axis with the weight matrix's input axis (`bsd,od->bso`) and adds
  the bias broadcast over tokens. Over the extended reals the host's contraction is the plain sum of products, so at
  (n, s, o) the result is  ∑ₖ x[n, s, k] · w[o, k] + b[o]  with `w` the effective weight matrix — read off the
  generated per-operation lemmas, with their composed index functions identified with plain coordinates.
-/
import proofs.«125920_j44719199486025_1_alg».proof.Proof.Gen.ReferenceIdeal.Read
import proofs.«125920_j44719199486025_1_alg».proof.Proof.Linear

noncomputable section

open scoped BigOperators

namespace Cert.ReferenceIdeal.ReferenceResult

open Cert.ReferenceIdeal Cert.ReferenceIdeal.Gen Cert.ReferenceIdeal.Read Idealize.ShloMosaic Idealize.ShloMosaic.ValueIdx

/-- The contraction's left operand index at output (n, s, o) and position `k`: token (n, s), input `k`. -/
theorem left_index (n : Fin 8) (s : Fin 4096) (o k : Fin 1024) : lidx_main_v15 (ix3 n s o) k = ix3 n s k :=
  funext fun a => by match a with | ⟨0, _⟩ => rfl | ⟨1, _⟩ => rfl | ⟨2, _⟩ => rfl
/-- Its right operand index: output row `o` of the weight matrix, input `k`. -/
theorem right_index (n : Fin 8) (s : Fin 4096) (o k : Fin 1024) : ridx_main_v15 (ix3 n s o) k = ix2 o k :=
  funext fun a => by match a with | ⟨0, _⟩ => rfl | ⟨1, _⟩ => rfl
/-- The broadcast bias at (n, s, o) reads the bias at `o`. -/
theorem bias_index (n : Fin 8) (s : Fin 4096) (o : Fin 1024) : idx_main_v16 (idx_main_v17 (ix3 n s o)) = ix1 o :=
  funext fun a => by match a with | ⟨0, _⟩ => rfl

/-- The reference's result stage is the linear layer with the effective weight matrix. -/
theorem result_eq (x0 : FVec Ideal S8x4096x1024 .f32) (x1 : FVec Ideal S1024x1024 .f32) (x2 : FVec Ideal S1 .f32) (x3 : FVec Ideal S1024 .f32) :
    val_main_v18 (F := Ideal) x0 x1 x2 x3 = Cert.Linear.linear x0 (val_main_v14 (F := Ideal) x1 x2) x3 := by
  funext i
  obtain ⟨n, s, o, rfl⟩ : ∃ (n : Fin 8) (s : Fin 4096) (o : Fin 1024), i = ix3 n s o := ⟨i 0, i 1, i 2, eq_ix3 i⟩
  rw [val_main_v18_apply, val_main_v15_apply, val_main_v17_apply, val_main_v16_apply]
  unfold Cert.Linear.linear
  simp only [left_index, right_index, bias_index]
  rfl

end Cert.ReferenceIdeal.ReferenceResult

end
-- ==== Proof.lean ====
/-
  A ternary-weight linear layer: the Pallas kernel against its jnp reference, over the extended reals.

  Both programs first derive the effective weight matrix `w` from the raw weights `W` and the scale `α` by the same
  elementwise steps with the same constants: the threshold δ = 0.7 · mean |W|, the ternary matrix (+1 where W > δ,
  −1 where W < −δ, 0 elsewhere), times α. The reference then contracts the activations with `w` and adds the bias:

      out[n, s, o] = ∑ₖ x[n, s, k] · w[o, k] + b[o].

  The kernel transposes `w`, flattens the 8 × 4096 tokens to 32768 rows, runs a 32-point grid in which point `t`
  multiplies rows 1024·t … 1024·t + 1023 by the whole transposed matrix and adds the bias row, and reshapes the result
  back. Over the extended reals the changes of float format are the identity and both matrix products are plain sums
  of products with the factors in the same order, so the two results are the same sum term by term: only indices are
  rearranged (row 4096·n + s is token (n, s); the transposed matrix at (k, o) is `w` at (o, k)), and no law of
  arithmetic that could fail at an infinity is used — the finiteness of the inputs is never needed.

  The frames of the two kernel programs are the generated ones; the reference's frame is its generated run with the
  result dropped; nothing was rewritten by the idealization, so it is preserved trivially.
-/
import proofs.«125920_j44719199486025_1_alg».proof.Defs
import proofs.«125920_j44719199486025_1_alg».proof.Proof.Gen.Kernel
import proofs.«125920_j44719199486025_1_alg».proof.Proof.Gen.Kernel.Skeleton
import proofs.«125920_j44719199486025_1_alg».proof.Proof.Gen.Kernel.Launch
import proofs.«125920_j44719199486025_1_alg».proof.Proof.Gen.Kernel.Points
import proofs.«125920_j44719199486025_1_alg».proof.Proof.Gen.Kernel.Frame
import proofs.«125920_j44719199486025_1_alg».proof.Proof.Gen.KernelIdeal
import proofs.«125920_j44719199486025_1_alg».proof.Proof.Gen.KernelIdeal.Skeleton
import proofs.«125920_j44719199486025_1_alg».proof.Proof.Gen.KernelIdeal.Launch
import proofs.«125920_j44719199486025_1_alg».proof.Proof.Gen.KernelIdeal.Points
import proofs.«125920_j44719199486025_1_alg».proof.Proof.Gen.KernelIdeal.Frame
import proofs.«125920_j44719199486025_1_alg».proof.Proof.Gen.ReferenceIdeal
import proofs.«125920_j44719199486025_1_alg».proof.Proof.Gen.ReferenceIdeal.Run
import proofs.«125920_j44719199486025_1_alg».proof.Proof.Gen.ReferenceIdeal.Read
import proofs.«125920_j44719199486025_1_alg».proof.Proof.Gen.Pre_finite_inputs
import proofs.«125920_j44719199486025_1_alg».proof.Proof.KernelResult
import proofs.«125920_j44719199486025_1_alg».proof.Proof.ReferenceResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the four arguments both programs end with the linear layer of those arguments in
    their result arrays: the kernel by its run read through the region and the two reshapes, the reference by its run
    read operation by operation. -/
theorem algebraic : Cert.algebraic_KernelIdeal_ReferenceIdeal := by
  intro m ρ m' ρ' _ hagree
  refine ⟨_, Cert.KernelIdeal.KernelResult.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.ReferenceResult.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
